-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S50000x64 : Shape := ⟨2, ![50000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S1024x64 .f32) (main_arg1 : FVec F S50000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S1024x64 : Shape := ⟨2, ![1024, 64]⟩
abbrev S50000x64 : Shape := ⟨2, ![50000, 64]⟩
abbrev S_ : Shape := ⟨0, ![]⟩
abbrev S50176x64 : Shape := ⟨2, ![50176, 64]⟩
abbrev S1024x50176 : Shape := ⟨2, ![1024, 50176]⟩
abbrev S1024x1024 : Shape := ⟨2, ![1024, 1024]⟩
abbrev S64x1024 : Shape := ⟨2, ![64, 1024]⟩
abbrev S1024x50000 : Shape := ⟨2, ![1024, 50000]⟩

abbrev nBuf : Space → Nat
  | .hbm => 7
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S50000x64, .f32⟩
  | .hbm, ⟨2, _⟩ => ⟨S_, .i32⟩
  | .hbm, ⟨3, _⟩ => ⟨S_, .f32⟩
  | .hbm, ⟨4, _⟩ => ⟨S50176x64, .f32⟩
  | .hbm, ⟨5, _⟩ => ⟨S1024x50176, .f32⟩
  | .hbm, ⟨6, _⟩ => ⟨S1024x50000, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x1024, .f32⟩
  | .local _ .vmem, ⟨4, _⟩ => ⟨S1024x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S50000x64_S50176x64_01760_000 : S50000x64.Pads (![0, 0] : Fin 2 → Nat) ![176, 0] ![0, 0] S50176x64
  h_S_ : 0 < S_.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  slices_S1024x50176_S1024x50000_0_0 : S1024x50176.Slices ![0, 0] S1024x50000
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S50176x64.size a
  hwx0_1 : ∀ i : grid0.Coords, EltTy.bits .f32 = 32 ∨ (Rect.block (s := S50176x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x50176.size a
  hwx0_2 : ∀ i : grid0.Coords, EltTy.bits .f32 = 32 ∨ (Rect.block (s := S1024x50176) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S50000x64 : Shape := ⟨2, ![50000, 64]⟩
abbrev S64x50000 : Shape := ⟨2, ![64, 50000]⟩
abbrev S1024x50000 : Shape := ⟨2, ![1024, 50000]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S50000x64, .f32⟩
  | .hbm, ⟨2, _⟩ => ⟨S64x50000, .f32⟩
  | .hbm, ⟨3, _⟩ => ⟨S1024x50000, .f32⟩
  | .hbm, ⟨4, _⟩ => ⟨S1024x50000, .f32⟩
  | .hbm, ⟨5, _⟩ => ⟨S1024x64, .f32⟩
  | .hbm, ⟨6, _⟩ => ⟨S50000x64, .f32⟩
  | .hbm, ⟨7, _⟩ => ⟨S64x50000, .f32⟩
  | .hbm, ⟨8, _⟩ => ⟨S1024x50000, .f32⟩
  | .hbm, ⟨9, _⟩ => ⟨S1024x50000, .f32⟩
  | .hbm, ⟨10, _⟩ => ⟨S_, .f32⟩
  | .hbm, ⟨11, _⟩ => ⟨S1024x50000, .f32⟩
  | .hbm, ⟨12, _⟩ => ⟨S1024x50000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  transposes_S50000x64_S64x50000_1_0 : S50000x64.Transposes [1, 0] S64x50000
  bcast_S_S1024x50000 : S_.BroadcastsInDim S1024x50000 (![] : Fin 0 → Fin S1024x50000.rank)
  dot_S1024x64_S64x50000_S1024x50000_1_0_0_1_n_n_wf : DotDims.WF S1024x64 S64x50000 S1024x50000 [1] [0] [0] [1] [] []

variable [Facts₀]

def dot_S1024x64_S64x50000_S1024x50000_1_0_0_1_n_n : DotDims S1024x64 S64x50000 S1024x50000 where
  lhsContracting := [1]
  rhsContracting := [0]
  lhsNonContracting := [0]
  rhsNonContracting := [1]
  lhsBatch := []
  rhsBatch := []
  wf := dot_S1024x64_S64x50000_S1024x50000_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

/-! # The second-order interaction term

For a user table `u` of 1024 rows and a movie table `mv` of `R` rows, both of 64 columns, the interaction of user `b`
with movie `j` is

  `½ · ((∑ₖ u[b,k]·mv[j,k])² − ∑ₖ u[b,k]²·mv[j,k]²)`

on the extended reals, the half being the binary32 word `0x3F000000` kept as a word (both programs carry the same
word, so it is never evaluated), the square written as the product of the sum with itself, and each squared entry as
the entry times itself: this is the order in which both programs multiply.

The term depends on the user table only through row `b` and on the movie table only through row `j`
(`pair_of_rows`). That is all that is needed to pass from a block of a table to the table, and from a table padded
with further rows to the table itself: rows that agree give the same term. -/

namespace Cert.Interaction

open Idealize.ShloMosaic Idealize.ShloMosaic.ValueIdx

/-- The interaction of user `b` with movie `j`. -/
def pair {R : ℕ} (u : (⟨2, ![1024, 64]⟩ : Shape).Idx → EReal) (mv : (⟨2, ![R, 64]⟩ : Shape).Idx → EReal)
    (b : Fin 1024) (j : Fin R) : EReal :=
  Ideal.ofBits .f32 0x3F000000#32 *
    ((∑ k : Fin 64, u (ix2 b k) * mv (ix2 j k)) * (∑ k : Fin 64, u (ix2 b k) * mv (ix2 j k))
      - ∑ k : Fin 64, (u (ix2 b k) * u (ix2 b k)) * (mv (ix2 j k) * mv (ix2 j k)))

/-- The interaction reads one row of each table: user tables that agree on the rows `b`, `b'` and movie tables that
    agree on the rows `j`, `j'` give the same term there. -/
theorem pair_of_rows {R R' : ℕ} (u u' : (⟨2, ![1024, 64]⟩ : Shape).Idx → EReal)
    (mv : (⟨2, ![R, 64]⟩ : Shape).Idx → EReal) (mv' : (⟨2, ![R', 64]⟩ : Shape).Idx → EReal)
    (b b' : Fin 1024) (j : Fin R) (j' : Fin R') (hu : ∀ k : Fin 64, u (ix2 b k) = u' (ix2 b' k))
    (hm : ∀ k : Fin 64, mv (ix2 j k) = mv' (ix2 j' k)) :
    pair u mv b j = pair u' mv' b' j' := by
  unfold pair
  simp only [hu, hm]

end Cert.Interaction

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KernelBlock.lean ====
import proofs.«122710_j20040317403344_1_alg».proof.Proof.Gen.KernelIdeal.Skeleton
import proofs.«122710_j20040317403344_1_alg».proof.Proof.Spec
import proofs.«122710_j20040317403344_1_alg».proof.Proof.LibPlainDot
import Idealize.ShloMosaic.Lib.Pipeline.Value
import Idealize.ShloMosaic.Lib.ValueIdx
import Idealize.ShloMosaic.PureOps.Ideal.Laws

noncomputable section

open scoped BigOperators

/-! # One grid step computes the interaction term of its block

A grid step loads the whole user table and one block of 1024 movie rows, and stores a 1024 × 1024 tile. On the
extended reals a change of float format is the identity, so the two narrowing casts drop out; the transposed movie
block at `(k, q)` is the block at `(q, k)`; and a matrix product into the zero accumulator at `(p, q)` is the sum over
the 64 columns. Entry `(p, q)` of the stored tile is therefore the interaction of user `p` with row `q` of the movie
block. -/

namespace Cert.KernelIdeal.Block

open Cert.KernelIdeal Cert.KernelIdeal.Gen Idealize.ShloMosaic Idealize.ShloMosaic.ValueIdx Cert.Interaction

/-- The transposed block at `(k, q)` is the block at `(q, k)`. -/
theorem transposed_apply {α : Type} (y : S1024x64.Idx → α) (h : S1024x64.Transposes [1, 0] S64x1024) (k : Fin 64) (q : Fin 1024) :
    transpose S64x1024 [1, 0] y h (ix2 k q) = y (ix2 q k) :=
  transpose_apply [1, 0] y h (ix2 k q) (ix2 q k) (fun b => match b with
    | ⟨0, _⟩ => rfl
    | ⟨1, _⟩ => rfl)

/-- The stored tile at `(p, q)` is the interaction of user `p` with row `q` of the loaded movie block. -/
theorem tile_apply (x0 x1 : Vec Ideal S1024x64 .f32) (p q : Fin 1024) :
    k0_pay1 (F := Ideal) x0 x1 (ix2 p q) = pair (R := 1024) x0 x1 p q := by
  unfold k0_pay1 pair
  simp only [mulf_apply, subf_apply, broadcast_apply, matmul]
  rw [Cert.PlainDot.matmul_zero_apply (M := 1024) (K := 64) (N := 1024) dot_S1024x64_S64x1024_S1024x1024_1_0_0_1_n_n rfl,
    Cert.PlainDot.matmul_zero_apply (M := 1024) (K := 64) (N := 1024) dot_S1024x64_S64x1024_S1024x1024_1_0_0_1_n_n rfl]
  have h0 : (ix2 p q : S1024x1024.Idx) 0 = p := rfl
  have h1 : (ix2 p q : S1024x1024.Idx) 1 = q := rfl
  simp only [h0, h1, shapeCast_self]
  have hT : ∀ (y : FVec Ideal S1024x64 .bf16) (k : Fin 64),
      transpose S64x1024 [1, 0] y transposes_S1024x64_p1_0_S64x1024 (ix2 k q) = y (ix2 q k) :=
    fun y k => transposed_apply y _ k q
  simp only [hT]
  rfl

end Cert.KernelIdeal.Block

end
-- ==== Proof.KernelArray.lean ====
import proofs.«122710_j20040317403344_1_alg».proof.Proof.Gen.KernelIdeal.Frame
import proofs.«122710_j20040317403344_1_alg».proof.Proof.KernelBlock
import Idealize.ShloMosaic.Lib.Pipeline.Value

set_option maxRecDepth 16384

noncomputable section

open scoped BigOperators

/-! # The padded result array is the interaction term, entry by entry

The grid has 49 steps. Step `t` reads the whole user table and rows `1024·t … 1024·t + 1023` of the padded movie
table (50176 rows), and writes columns `1024·t … 1024·t + 1023` of the 1024 × 50176 result. Entry `(p, q)` of its
tile is the interaction of user `p` with row `q` of its movie block, which is row `1024·t + q` of the padded table: so
the tile is the block, at the step's columns, of the ONE array whose entry `(b, j)` is the interaction of user `b`
with row `j` of the padded table. Column `j` lies in the tile of step `j / 1024`, so the tiles cover the array and it
ends holding that function. -/

namespace Cert.KernelIdeal.Tiles

open Cert.KernelIdeal Cert.KernelIdeal.Gen Idealize.ShloMosaic Idealize.ShloMosaic.TcCoe Idealize.ShloMosaic.ValueIdx
open Idealize.SL.Sem Cert.Interaction
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The padded result: entry `(b, j)` is the interaction of user `b` with row `j` of the padded movie table, both
    tables as the grid finds them. -/
def padded (c : Dev nD) : S1024x50176.Idx → Elt Ideal .f32 := fun i =>
  pair (R := 50176) (V m c main_arg0) (V m c main_v0) (i 0) (i 1)

/-- Where each window's block sits at step `t`: the user table's at the origin, the movie table's `t` blocks down,
    the result's `t` blocks to the right. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What step `t` writes back is its block of the padded result. -/
theorem flushed_eq (c : Dev nD) (t : Fin cfg0.N) :
    (dats m 0 c).flushed 2 t = ((cfg0.win 2).blk t).view.read (Elt Ideal) (padded m c) := by
  show (cfg0.win 2).cut (grid0.coords t) ((dats m 0 c).after 2 t) = _
  rw [after0_2]
  unfold out0_2
  rw [View.canon_unit_zero origin]
  simp only [View.ld_unit_zero (S := S1024x64) origin]
  obtain ⟨e00, e01, e10, e11, e20, e21⟩ := block_index t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = pair (R := 50176) (V m c main_arg0) (V m c main_v0)
        ((((cfg0.win 2).blk t).view.emb (ix2 p q)) 0) ((((cfg0.win 2).blk t).view.emb (ix2 p q)) 1)
  refine (Block.tile_apply (iblk m c 0 t) (iblk m c 1 t) p q).trans ?_
  refine pair_of_rows (iblk m c 0 t) (V m c main_arg0) (iblk m c 1 t) (V m c main_v0) p
    ((((cfg0.win 2).blk t).view.emb (ix2 p q)) 0) q ((((cfg0.win 2).blk t).view.emb (ix2 p q)) 1) (fun k => ?_) (fun k => ?_)
  · show V m c main_arg0 (((cfg0.win 0).blk t).view.emb (ix2 p k))
      = V m c main_arg0 (ix2 ((((cfg0.win 2).blk t).view.emb (ix2 p q)) 0) k)
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 64 + 1 * k.val = k.val
      omega
  · show V m c main_v0 (((cfg0.win 1).blk t).view.emb (ix2 q k))
      = V m c main_v0 (ix2 ((((cfg0.win 2).blk t).view.emb (ix2 p q)) 1) k)
    refine congrArg (V m c main_v0) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 64 + 1 * k.val = k.val
      omega

/-- An entry of the result array is in step `t`'s tile iff each coordinate is in the tile's range on its axis. -/
theorem mem_tile (t : Fin cfg0.N) (i : S1024x50176.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Column `j` is written by step `j / 1024`: every entry is in some step's tile. -/
theorem covered (i : S1024x50176.Idx) :
    ∃ t : Fin cfg0.N, (cfg0.win 2).flush t = true ∧ i ∈ ((cfg0.win 2).blk t).view.set := by
  have hi0 : (i 0).val < 1024 := (i 0).isLt
  have hi1 : (i 1).val < 50176 := (i 1).isLt
  have hN : cfg0.N = 49 := N_0
  obtain ⟨t, ht⟩ : ∃ t : Fin cfg0.N, t.val = (i 1).val / 1024 := ⟨⟨(i 1).val / 1024, by omega⟩, rfl⟩
  obtain ⟨e00, e01, e10, e11, e20, e21⟩ := block_index t
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the last step is the padded result. -/
theorem final (c : Dev nD) : (dats m 0 c).arrAt 2 cfg0.N = padded m c :=
  (dats m 0 c).arrAt_eq_of_cover 2 (padded m c) (fun t _ => flushed_eq m c t) (covered)

end Cert.KernelIdeal.Tiles

end
-- ==== Proof.KernelRun.lean ====
import proofs.«122710_j20040317403344_1_alg».proof.Proof.Gen.KernelIdeal.Frame
import proofs.«122710_j20040317403344_1_alg».proof.Proof.KernelArray
import Idealize.ShloMosaic.Lib.Pipeline.Value
import Idealize.ShloMosaic.Lib.KernelVsHost
import Idealize.ShloMosaic.Lib.StableHlo.Run

set_option maxRecDepth 16384

noncomputable section

open scoped BigOperators

/-! # The kernel's result

Around the grid the program does two things on the host. Before it, the movie table is padded with 176 further rows
to 50176 rows: rows below 50000 of the padded table are the table's own rows (what the further rows hold does not
matter below). After it, the first 50000 columns of the 1024 × 50176 array are kept. Entry `(b, j)` of what is kept
is entry `(b, j)` of the padded result with `j < 50000`, the interaction of user `b` with row `j` of the padded table,
which is row `j` of the table itself. So the program's result is the interaction term of its two arguments. -/

namespace Cert.KernelIdeal.Result

open Cert.KernelIdeal Cert.KernelIdeal.Gen Idealize.ShloMosaic Idealize.ShloMosaic.TcCoe Idealize.ShloMosaic.ValueIdx
open Idealize.SL.Sem Cert.Interaction
open Idealize.ShloMosaic.Pipeline (Dat Cfg Window)

variable (m : (ℓ : Loc nD τ sig) → Buf (Elt Ideal) ℓ) (ρ : Dev nD → PrngReg)

/-- The movie table as the grid finds it: the argument padded with 176 further rows. -/
theorem padded_table (c : Dev nD) :
    (V m c main_v0 : S50176x64.Idx → Elt Ideal .f32)
      = pad S50176x64 ![0, 0] ![176, 0] ![0, 0] (m ((c : Thread nD τ).loc main_arg1))
          (sitofp (F := Ideal) .f32 (constantI S_ 32 0#32)) pads_S50000x64_S50176x64_01760_000 h_S_ := by
  dsimp only [Gen.V, Gen.V0]
  simp only [Gen.hostOps0, Gen.hostOps0_1, List.flatten_cons, List.flatten_nil, List.append_nil, List.cons_append,
    List.nil_append]
  after_results
  rfl

/-- A row below 50000 of the padded table is the table's own row. -/
theorem padded_row (c : Dev nD) (j : Fin 50176) (hj : j.val < 50000) (k : Fin 64) :
    (V m c main_v0 : S50176x64.Idx → Elt Ideal .f32) (ix2 j k)
      = m ((c : Thread nD τ).loc main_arg1) (ix2 (⟨j.val, hj⟩ : Fin 50000) k) := by
  rw [padded_table]
  exact pad_apply_of_inside ![0, 0] ![176, 0] ![0, 0] _ _ pads_S50000x64_S50176x64_01760_000 h_S_ (ix2 j k)
    (ix2 (⟨j.val, hj⟩ : Fin 50000) k) (fun a => match a with
      | ⟨0, _⟩ => by show j.val = 0 + j.val * (0 + 1); omega
      | ⟨1, _⟩ => by show k.val = 0 + k.val * (0 + 1); omega)

/-- What the program returns: the first 50000 columns of the padded result. -/
theorem kept_columns (c : Dev nD) :
    Pipeline.afterTail₀ cfgs (dats m) 0 (V0 m) [hostOps1] c main_v2
      = extractStridedSlice S1024x50000 ![0, 0] (Tiles.padded m c) slices_S1024x50176_S1024x50000_0_0 := by
  unfold Pipeline.afterTail₀
  show StableHlo.after hostOps1 _ (Proc.devRef .tc main_v2) = _
  after_results
  exact congrArg (fun x => extractStridedSlice S1024x50000 ![0, 0] x slices_S1024x50176_S1024x50000_0_0)
    ((Pipeline.withArrays_arr spec0 launch0.win.arr_inj c (V0 m c) (fun w => (dats m 0 c).arrAt w (cfgs 0).N) 2).trans
      (Tiles.final m c))

/-- The program's result at `(b, j)` is the interaction of user `b` with movie `j` of the two argument tables. -/
theorem result_apply (c : Dev nD) (i : S1024x50000.Idx) :
    Pipeline.afterTail₀ cfgs (dats m) 0 (V0 m) [hostOps1] c main_v2 i
      = pair (R := 50000) (m ((c : Thread nD τ).loc main_arg0)) (m ((c : Thread nD τ).loc main_arg1)) (i 0) (i 1) := by
  rw [kept_columns]
  have hi1 : (i 1).val < 50000 := (i 1).isLt
  refine (extractStridedSlice_apply ![0, 0] (Tiles.padded m c) slices_S1024x50176_S1024x50000_0_0 i
    (ix2 (i 0) (⟨(i 1).val, by omega⟩ : Fin 50176)) (fun a => match a with
      | ⟨0, _⟩ => by show (i 0).val = 0 + (i 0).val; omega
      | ⟨1, _⟩ => by show (i 1).val = 0 + (i 1).val; omega)).trans ?_
  unfold Tiles.padded
  refine pair_of_rows (V m c main_arg0) (m ((c : Thread nD τ).loc main_arg0)) (V m c main_v0)
    (m ((c : Thread nD τ).loc main_arg1)) (i 0) (i 0) (⟨(i 1).val, by omega⟩ : Fin 50176) (i 1) (fun k => ?_) (fun k => ?_)
  · rw [V_main_arg0]
  · exact padded_row m c (⟨(i 1).val, by omega⟩ : Fin 50176) hi1 k

/-- Every weakly fair execution of the program terminates with its result holding the interaction term of the two
    argument tables, entry by entry, and the argument tables unchanged. -/
theorem run : θ_run defs (onTc (τ := τ) (main (F := Ideal))) ⟨m, fun _ => 0, ρ⟩ (fun r => ∀ c : Dev nD,
      r.2.mem ((c.tc : Thread nD τ).loc main_v2)
        = (fun i => pair (R := 50000) (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (funext (result_apply m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefValue.lean ====
import proofs.«122710_j20040317403344_1_alg».proof.Proof.Gen.ReferenceIdeal.Read
import proofs.«122710_j20040317403344_1_alg».proof.Proof.Spec

noncomputable section

open scoped BigOperators

/-! # The reference computes the interaction term

The reference multiplies the user table by the transposed movie table, squares the product entry by entry, does the
same with the two tables squared entry by entry, subtracts and halves. Read at an entry `(b, j)`, operation by
operation: a transposed table at `(k, j)` is the table at `(j, k)`, a product of matrices at `(b, j)` is the sum over
the 64 columns, and the remaining operations act entry by entry. What is left is the interaction of user `b` with
movie `j`. -/

namespace Cert.ReferenceIdeal.RefValue

open Cert.ReferenceIdeal Cert.ReferenceIdeal.Read Idealize.ShloMosaic Idealize.ShloMosaic.ValueIdx Cert.Interaction

/-- The reference's result at an entry is the interaction term of the two argument tables. -/
theorem result_apply (x0 : (⟨S1024x64, .f32⟩ : BufTy).Contents (Elt Ideal)) (x1 : (⟨S50000x64, .f32⟩ : BufTy).Contents (Elt Ideal))
    (i : S1024x50000.Idx) : val_main_v9 (F := Ideal) x0 x1 i = pair (R := 50000) x0 x1 (i 0) (i 1) := by
  have el1 : ∀ k : Fin 64, lidx_main_v1 i k = ix2 (i 0) k := fun k => funext fun a => Fin.ext (by
    match a with
    | ⟨0, _⟩ => rfl
    | ⟨1, _⟩ => rfl)
  have el6 : ∀ k : Fin 64, lidx_main_v6 i k = ix2 (i 0) k := fun k => funext fun a => Fin.ext (by
    match a with
    | ⟨0, _⟩ => rfl
    | ⟨1, _⟩ => rfl)
  have er1 : ∀ k : Fin 64, idx_main_v0 (ridx_main_v1 i k) = ix2 (i 1) k := fun k => funext fun a => Fin.ext (by
    match a with
    | ⟨0, _⟩ => rfl
    | ⟨1, _⟩ => rfl)
  have er6 : ∀ k : Fin 64, idx_main_v5 (ridx_main_v6 i k) = ix2 (i 1) k := fun k => funext fun a => Fin.ext (by
    match a with
    | ⟨0, _⟩ => rfl
    | ⟨1, _⟩ => rfl)
  rw [val_main_v9_apply, val_main_v8_apply, val_main_cst_apply, val_main_v7_apply, val_main_v2_apply,
    val_main_v1_apply, val_main_v6_apply]
  simp only [val_main_v0_apply, val_main_v5_apply, val_main_v4_apply, val_main_v3_apply, el1, el6, er1, er6,
    Ideal.mulf_def, Ideal.subf_def, Ideal.ofBits_def]
  rfl

end Cert.ReferenceIdeal.RefValue

end
-- ==== Proof.lean ====
/-
  A factorization machine's second-order interaction of 1024 users with 50000 movies over 64 latent columns:

    `out[b, j] = ½ · ((∑ₖ u[b,k]·v[j,k])² − ∑ₖ u[b,k]²·v[j,k]²)`.

  The reference computes it with two products of matrices on the whole tables. The kernel pads the movie table with
  176 further rows to 49 blocks of 1024 rows, computes one 1024 × 1024 tile per block — the same two products,
  on operands narrowed to bfloat16 — and afterwards keeps the first 50000 columns.

  On the extended reals the narrowing is the identity, a product of matrices into a zero accumulator is the plain sum
  over the 64 columns on both sides, and both programs multiply in the same order with the same word for the half. So
  entry `(b, j)` of either result is one and the same term of row `b` of the user table and row `j` of the movie
  table (`Cert.Interaction.pair`). No law of arithmetic is used beyond that, and hence no finiteness: the two sides are
  the same expression once each is read at an entry. The padded rows only reach columns from 50000 on, which are
  dropped.

  The parts: the reference read at an entry (`RefValue`); one grid step's tile read at an entry (`KernelBlock`); the
  tiles as blocks of one array and their cover of it (`KernelArray`); the padding before and the cut after the grid,
  and the kernel's run (`KernelRun`). The three programs' runs terminate without fault and leave their arguments
  unchanged; the idealized kernel is the kernel's own text read on the extended reals, with nothing rewritten.
-/
import proofs.«122710_j20040317403344_1_alg».proof.Defs
import proofs.«122710_j20040317403344_1_alg».proof.Proof.Gen.Kernel
import proofs.«122710_j20040317403344_1_alg».proof.Proof.Gen.Kernel.Frame
import proofs.«122710_j20040317403344_1_alg».proof.Proof.Gen.KernelIdeal
import proofs.«122710_j20040317403344_1_alg».proof.Proof.Gen.KernelIdeal.Frame
import proofs.«122710_j20040317403344_1_alg».proof.Proof.Gen.ReferenceIdeal
import proofs.«122710_j20040317403344_1_alg».proof.Proof.Gen.ReferenceIdeal.Run
import proofs.«122710_j20040317403344_1_alg».proof.Proof.Gen.Pre_finite_inputs
import proofs.«122710_j20040317403344_1_alg».proof.Proof.KernelRun
import proofs.«122710_j20040317403344_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two tables both programs end with the interaction term of those tables in their
    result, entry by entry: the kernel by its run, the reference by its run read at an entry. -/
theorem algebraic : Cert.algebraic_KernelIdeal_ReferenceIdeal := by
  intro m ρ m' ρ' _ hagree
  refine ⟨fun c => fun i => Cert.Interaction.pair (R := 50000)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0) (i 1),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, (hagree c).1, (hagree c).2]
  exact funext fun i => Cert.ReferenceIdeal.RefValue.result_apply _ _ i

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
